-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x512 : Shape := ⟨3, ![8, 200, 512]⟩
abbrev S8x100 : Shape := ⟨2, ![8, 100]⟩
abbrev S1024x512 : Shape := ⟨2, ![1024, 512]⟩
abbrev S1024 : Shape := ⟨1, ![1024]⟩
abbrev S_ : Shape := ⟨0, ![]⟩

class Facts : Prop where
  bcast_S_S8x200x512 : S_.BroadcastsInDim S8x200x512 (![] : Fin 0 → Fin S8x200x512.rank)
  reducesTo_S8x200x512_S_d0_1_2 : S8x200x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S8x100 : S_.BroadcastsInDim S8x100 (![] : Fin 0 → Fin S8x100.rank)
  reducesTo_S8x100_S_d0_1 : S8x100.ReducesTo [0, 1] S_

variable [Facts]

def fn_part1 {F : FTy → Type} [FloatOps F] (main_arg1 : IVec S8x100 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_c_6 : IVec S_ 32 := constantI S_ 32 4294966272#32
  let main_v19 : IVec S8x100 32 := broadcastInDim S8x100 ![] bcast_S_S8x100 main_c_6
  let main_v20 : IVec S8x100 1 := cmpi .sge main_arg1 main_v19
  let main_c_7 : IVec S_ 1 := constantI S_ 1 1#1
  let main_v21 : IVec S_ 1 := (fun x v => Host.reduce IntOp.andi x v reducesTo_S8x100_S_d0_1 h_S_) main_v20 main_c_7
  let main_v22 : IVec S_ 1 := andi main_v18 main_v21
  let main_c_8 : IVec S_ 32 := constantI S_ 32 1024#32
  let main_v23 : IVec S8x100 32 := broadcastInDim S8x100 ![] bcast_S_S8x100 main_c_8
  let main_v24 : IVec S8x100 1 := cmpi .slt main_arg1 main_v23
  let main_c_9 : IVec S_ 1 := constantI S_ 1 1#1
  let main_v25 : IVec S_ 1 := (fun x v => Host.reduce IntOp.andi x v reducesTo_S8x100_S_d0_1 h_S_) main_v24 main_c_9
  let main_v26 : IVec S_ 1 := andi main_v22 main_v25
  main_v26

def fn {F : FTy → Type} [FloatOps F] (main_arg0 : FVec F S8x200x512 .f32) (main_arg1 : IVec S8x100 32) (main_arg2 : FVec F S1024x512 .f32) (main_arg3 : FVec F S1024x512 .f32) (main_arg4 : FVec F S1024 .f32) : IVec S_ 1 :=
  let main_v0 : FVec F S8x200x512 .f32 := Host.absf main_arg0
  let main_cst : FVec F S_ .f32 := constant S_ .f32 0x7F800000#32
  let main_v1 : FVec F S8x200x512 .f32 := broadcastInDim S8x200x512 ![] bcast_S_S8x200x512 main_cst
  let main_v2 : IVec S8x200x512 1 := cmpf .olt main_v0 main_v1
  let main_c : IVec S_ 1 := constantI S_ 1 1#1
  let main_v3 : IVec S_ 1 := (fun x v => Host.reduce IntOp.andi x v reducesTo_S8x200x512_S_d0_1_2 h_S_) main_v2 main_c
  let main_v4 : FVec F S1024x512 .f32 := Host.absf main_arg2
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_v13 main_v16
-- ==== Kernel.lean ====
abbrev S8x200x512 : Shape := ⟨3, ![8, 200, 512]⟩
abbrev S8x100 : Shape := ⟨2, ![8, 100]⟩
abbrev S1024x512 : Shape := ⟨2, ![1024, 512]⟩
abbrev S1024 : Shape := ⟨1, ![1024]⟩
abbrev S_ : Shape := ⟨0, ![]⟩
abbrev S8x100x1 : Shape := ⟨3, ![8, 100, 1]⟩
abbrev S1 : Shape := ⟨1, ![1]⟩
abbrev S1x1x1 : Shape := ⟨3, ![1, 1, 1]⟩
abbrev S8x100x512 : Shape := ⟨3, ![8, 100, 512]⟩
abbrev S512x1024 : Shape := ⟨2, ![512, 1024]⟩
abbrev S8x200x100x1024 : Shape := ⟨4, ![8, 200, 100, 1024]⟩
abbrev S1x8x512 : Shape := ⟨3, ![1, 8, 512]⟩
abbrev S1x100x512 : Shape := ⟨3, ![1, 100, 512]⟩
abbrev S1x8x100x1024 : Shape := ⟨4, ![1, 8, 100, 1024]⟩
abbrev S8x512 : Shape := ⟨2, ![8, 512]⟩
abbrev S100x512 : Shape := ⟨2, ![100, 512]⟩
abbrev S8x1x512 : Shape := ⟨3, ![8, 1, 512]⟩
abbrev S800x512 : Shape := ⟨2, ![800, 512]⟩
abbrev S800x1024 : Shape := ⟨2, ![800, 1024]⟩
abbrev S1x1024 : Shape := ⟨2, ![1, 1024]⟩
abbrev S8x100x1024 : Shape := ⟨3, ![8, 100, 1024]⟩

abbrev nBuf : Space → Nat
  | .hbm => 31
  | .vmem => 8
  | .smem => 0
  | _ => 0

abbrev bufTy : (tb : Table) → Fin (tcTables nBuf tb) → BufTy
  | .hbm, ⟨0, _⟩ => ⟨S8x200x512, .f32⟩
  | .hbm, ⟨1, _⟩ => ⟨S8x100, .i32⟩
  | .hbm, ⟨2, _⟩ => ⟨S1024x512, .f32⟩
  | .hbm, ⟨3, _⟩ => ⟨S1024x512, .f32⟩
  | .hbm, ⟨4, _⟩ => ⟨S1024, .f32⟩
  | .hbm, ⟨5, _⟩ => ⟨S_, .i32⟩
  | .hbm, ⟨6, _⟩ => ⟨S8x100, .i32⟩
  | .hbm, ⟨7, _⟩ => ⟨S8x100, .i1⟩
  | .hbm, ⟨8, _⟩ => ⟨S_, .i32⟩
  | .hbm, ⟨9, _⟩ => ⟨S8x100, .i32⟩
  | .hbm, ⟨10, _⟩ => ⟨S8x100, .i32⟩
  | .hbm, ⟨11, _⟩ => ⟨S8x100, .i32⟩
  | .hbm, ⟨12, _⟩ => ⟨S8x100x1, .i32⟩
  | .hbm, ⟨13, _⟩ => ⟨S1, .i32⟩
  | .hbm, ⟨14, _⟩ => ⟨S_, .i32⟩
  | .hbm, ⟨15, _⟩ => ⟨S8x100x1, .i32⟩
  | .hbm, ⟨16, _⟩ => ⟨S8x100x1, .i1⟩
  | .hbm, ⟨17, _⟩ => ⟨S1x1x1, .i32⟩
  | .hbm, ⟨18, _⟩ => ⟨S8x100x1, .i32⟩
  | .hbm, ⟨19, _⟩ => ⟨S8x100x1, .i1⟩
  | .hbm, ⟨20, _⟩ => ⟨S8x100x1, .i1⟩
  | .hbm, ⟨21, _⟩ => ⟨S_, .i1⟩
  | .hbm, ⟨22, _⟩ => ⟨S8x100, .i1⟩
  | .hbm, ⟨23, _⟩ => ⟨S8x100x512, .f32⟩
  | .hbm, ⟨24, _⟩ => ⟨S8x100x512, .i1⟩
  | .hbm, ⟨25, _⟩ => ⟨S_, .f32⟩
  | .hbm, ⟨26, _⟩ => ⟨S8x100x512, .f32⟩
  | .hbm, ⟨27, _⟩ => ⟨S8x100x512, .f32⟩
  | .hbm, ⟨28, _⟩ => ⟨S512x1024, .f32⟩
  | .hbm, ⟨29, _⟩ => ⟨S512x1024, .bf16⟩
  | .hbm, ⟨30, _⟩ => ⟨S8x200x100x1024, .f32⟩
  | .local _ .vmem, ⟨0, _⟩ => ⟨S1x8x512, .f32⟩
  | .local _ .vmem, ⟨1, _⟩ => ⟨S1x8x512, .f32⟩
  | .local _ .vmem, ⟨2, _⟩ => ⟨S1x100x512, .f32⟩
  | .local _ .vmem, ⟨3, _⟩ => ⟨S1x100x512, .f32⟩
  | .local _ .vmem, ⟨4, _⟩ => ⟨S512x1024, .bf16⟩
  | .local _ .vmem, ⟨5, _⟩ => ⟨S1024, .f32⟩
  | .local _ .vmem, ⟨6, _⟩ => ⟨S1x8x100x1024, .f32⟩
  | .local _ .vmem, ⟨7, _⟩ => ⟨S1x8x100x1024, .f32⟩
  | _, _ => ⟨S8x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x100x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x100x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S8x100 : S_.BroadcastsInDim S8x100 (![] : Fin 0 → Fin S8x100.rank)
  bcast_S8x100_S8x100x1_0_1 : S8x100.BroadcastsInDim S8x100x1 (![0, 1] : Fin 2 → Fin S8x100x1.rank)
  bcast_S_S8x100x1 : S_.BroadcastsInDim S8x100x1 (![] : Fin 0 → Fin S8x100x1.rank)
  bcast_S1_S1x1x1_2 : S1.BroadcastsInDim S1x1x1 (![2] : Fin 1 → Fin S1x1x1.rank)
  bcast_S1x1x1_S8x100x1_0_1_2 : S1x1x1.BroadcastsInDim S8x100x1 (![0, 1, 2] : Fin 3 → Fin S8x100x1.rank)
  reducesTo_S8x100x1_S8x100_d2 : S8x100x1.ReducesTo [2] S8x100
  h_S_ : 0 < S_.numel
  bcast_S8x100_S8x100x512_0_1 : S8x100.BroadcastsInDim S8x100x512 (![0, 1] : Fin 2 → Fin S8x100x512.rank)
  bcast_S_S8x100x512 : S_.BroadcastsInDim S8x100x512 (![] : Fin 0 → Fin S8x100x512.rank)
  transposes_S1024x512_S512x1024_1_0 : S1024x512.Transposes [1, 0] S512x1024
  bitsLt_bf16_f32 : FTy.bits .bf16 < FTy.bits .f32
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  inb_S1x100x512_S1x100x512_0_0_0 : ∀ a, (![0, 0, 0] : Fin 3 → Nat) a + S1x100x512.size a ≤ S1x100x512.size a
  h_S1x100x512 : 0 < S1x100x512.numel
  shapeCasts_S1x100x512_S100x512 : S1x100x512.ShapeCasts S100x512
  shapeCasts_S8x512_S8x1x512 : S8x512.ShapeCasts S8x1x512
  shapeCasts_S100x512_S1x100x512 : S100x512.ShapeCasts S1x100x512
  broadcasts_S8x1x512_S8x100x512 : S8x1x512.Broadcasts S8x100x512
  broadcasts_S1x100x512_S8x100x512 : S1x100x512.Broadcasts S8x100x512
  shapeCasts_S8x100x512_S800x512 : S8x100x512.ShapeCasts S800x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S800x1024 : S1x1024.Broadcasts S800x1024
  shapeCasts_S800x1024_S8x100x1024 : S800x1024.ShapeCasts S8x100x1024
  inb_S1x8x100x1024_S1x8x100x1024_0_0_0_0 : ∀ a, (![0, 0, 0, 0] : Fin 4 → Nat) a + S1x8x100x1024.size a ≤ S1x8x100x1024.size a
  h_S1x8x100x1024 : 0 < S1x8x100x1024.numel
  shapeCasts_S1x8x100x1024_S8x100x1024 : S1x8x100x1024.ShapeCasts S8x100x1024
  shapeCasts_S8x100x1024_S1x8x100x1024 : S8x100x1024.ShapeCasts S1x8x100x1024
  gather_S1024x512_S8x100x1_S8x100x512_2_0_n_n_0_2_1512_wf : GatherDims.WF S1024x512 S8x100x1 S8x100x512 [2] [0] [] [0] [] 2 ![1, 512]
  dot_S800x512_S512x1024_S800x1024_1_0_0_1_n_n_wf : DotDims.WF S800x512 S512x1024 S800x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512.size a ≤ S8x200x512.size a
  hwx0_0 : ∀ i : grid0.Coords, EltTy.bits .f32 = 32 ∨ (Rect.block (s := S8x200x512) S1x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x100x512.size a ≤ S8x100x512.size a
  hwx0_1 : ∀ i : grid0.Coords, EltTy.bits .f32 = 32 ∨ (Rect.block (s := S8x100x512) S1x100x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x100x1024.size a ≤ S8x200x100x1024.size a
  hwx0_4 : ∀ i : grid0.Coords, EltTy.bits .f32 = 32 ∨ (Rect.block (s := S8x200x100x1024) S1x8x100x1024.size (cc0_transform_4 i) (hinb0_4 i)).WholeWords (EltTy.packing .f32)

variable [Facts₀]

def gather_S1024x512_S8x100x1_S8x100x512_2_0_n_n_0_2_1512 : GatherDims S1024x512 S8x100x1 S8x100x512 where
  offsetDims := [2]
  collapsedSliceDims := [0]
  operandBatchingDims := []
  startIndicesBatchingDims := []
  startIndexMap := [0]
  indexVectorDim := 2
  sliceSizes := ![1, 512]
  wf := gather_S1024x512_S8x100x1_S8x100x512_2_0_n_n_0_2_1512_wf
def dot_S800x512_S512x1024_S800x1024_1_0_0_1_n_n : DotDims S800x512 S512x1024 S800x1024 where
  lhsContracting := [1]
  rhsContracting := [0]
  lhsNonContracting := [0]
  rhsNonContracting := [1]
  lhsBatch := []
  rhsBatch := []
  wf := dot_S800x512_S512x1024_S800x1024_1_0_0_1_n_n_wf

abbrev win0_0 : Pipeline.Window sig grid0 :=
  Pipeline.Window.ofSpec (Memref.whole main_arg0) S1x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x100x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x8x100x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x200x512 : Shape := ⟨3, ![8, 200, 512]⟩
abbrev S8x100 : Shape := ⟨2, ![8, 100]⟩
abbrev S1024x512 : Shape := ⟨2, ![1024, 512]⟩
abbrev S1024 : Shape := ⟨1, ![1024]⟩
abbrev S_ : Shape := ⟨0, ![]⟩
abbrev S8x100x1 : Shape := ⟨3, ![8, 100, 1]⟩
abbrev S8x100x512 : Shape := ⟨3, ![8, 100, 512]⟩
abbrev S8x200x1x512 : Shape := ⟨4, ![8, 200, 1, 512]⟩
abbrev S8x1x100x512 : Shape := ⟨4, ![8, 1, 100, 512]⟩
abbrev S8x200x100x512 : Shape := ⟨4, ![8, 200, 100, 512]⟩
abbrev S8x200x100x1024 : Shape := ⟨4, ![8, 200, 100, 1024]⟩
abbrev S1x1x1x1024 : Shape := ⟨4, ![1, 1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x200x512, .f32⟩
  | .hbm, ⟨1, _⟩ => ⟨S8x100, .i32⟩
  | .hbm, ⟨2, _⟩ => ⟨S1024x512, .f32⟩
  | .hbm, ⟨3, _⟩ => ⟨S1024x512, .f32⟩
  | .hbm, ⟨4, _⟩ => ⟨S1024, .f32⟩
  | .hbm, ⟨5, _⟩ => ⟨S_, .i32⟩
  | .hbm, ⟨6, _⟩ => ⟨S8x100, .i32⟩
  | .hbm, ⟨7, _⟩ => ⟨S8x100, .i1⟩
  | .hbm, ⟨8, _⟩ => ⟨S_, .i32⟩
  | .hbm, ⟨9, _⟩ => ⟨S8x100, .i32⟩
  | .hbm, ⟨10, _⟩ => ⟨S8x100, .i32⟩
  | .hbm, ⟨11, _⟩ => ⟨S8x100, .i32⟩
  | .hbm, ⟨12, _⟩ => ⟨S8x100x1, .i32⟩
  | .hbm, ⟨13, _⟩ => ⟨S8x100x512, .f32⟩
  | .hbm, ⟨14, _⟩ => ⟨S8x200x1x512, .f32⟩
  | .hbm, ⟨15, _⟩ => ⟨S8x1x100x512, .f32⟩
  | .hbm, ⟨16, _⟩ => ⟨S8x200x100x512, .f32⟩
  | .hbm, ⟨17, _⟩ => ⟨S8x200x100x512, .f32⟩
  | .hbm, ⟨18, _⟩ => ⟨S8x200x100x512, .f32⟩
  | .hbm, ⟨19, _⟩ => ⟨S8x200x100x512, .f32⟩
  | .hbm, ⟨20, _⟩ => ⟨S8x200x100x1024, .f32⟩
  | .hbm, ⟨21, _⟩ => ⟨S1x1x1x1024, .f32⟩
  | .hbm, ⟨22, _⟩ => ⟨S8x200x100x1024, .f32⟩
  | .hbm, ⟨23, _⟩ => ⟨S8x200x100x1024, .f32⟩
  | _, _ => ⟨S8x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S8x100 : S_.BroadcastsInDim S8x100 (![] : Fin 0 → Fin S8x100.rank)
  bcast_S8x100_S8x100x1_0_1 : S8x100.BroadcastsInDim S8x100x1 (![0, 1] : Fin 2 → Fin S8x100x1.rank)
  bcast_S8x200x512_S8x200x1x512_0_1_3 : S8x200x512.BroadcastsInDim S8x200x1x512 (![0, 1, 3] : Fin 3 → Fin S8x200x1x512.rank)
  bcast_S8x100x512_S8x1x100x512_0_2_3 : S8x100x512.BroadcastsInDim S8x1x100x512 (![0, 2, 3] : Fin 3 → Fin S8x1x100x512.rank)
  bcast_S8x200x1x512_S8x200x100x512_0_1_2_3 : S8x200x1x512.BroadcastsInDim S8x200x100x512 (![0, 1, 2, 3] : Fin 4 → Fin S8x200x100x512.rank)
  bcast_S8x1x100x512_S8x200x100x512_0_1_2_3 : S8x1x100x512.BroadcastsInDim S8x200x100x512 (![0, 1, 2, 3] : Fin 4 → Fin S8x200x100x512.rank)
  bcast_S1024_S1x1x1x1024_3 : S1024.BroadcastsInDim S1x1x1x1024 (![3] : Fin 1 → Fin S1x1x1x1024.rank)
  bcast_S1x1x1x1024_S8x200x100x1024_0_1_2_3 : S1x1x1x1024.BroadcastsInDim S8x200x100x1024 (![0, 1, 2, 3] : Fin 4 → Fin S8x200x100x1024.rank)
  gather_S1024x512_S8x100x1_S8x100x512_2_0_n_n_0_2_1512_wf : GatherDims.WF S1024x512 S8x100x1 S8x100x512 [2] [0] [] [0] [] 2 ![1, 512]
  dot_S8x200x100x512_S1024x512_S8x200x100x1024_3_1_012_0_n_n_wf : DotDims.WF S8x200x100x512 S1024x512 S8x200x100x1024 [3] [1] [0, 1, 2] [0] [] []

variable [Facts₀]

def gather_S1024x512_S8x100x1_S8x100x512_2_0_n_n_0_2_1512 : GatherDims S1024x512 S8x100x1 S8x100x512 where
  offsetDims := [2]
  collapsedSliceDims := [0]
  operandBatchingDims := []
  startIndicesBatchingDims := []
  startIndexMap := [0]
  indexVectorDim := 2
  sliceSizes := ![1, 512]
  wf := gather_S1024x512_S8x100x1_S8x100x512_2_0_n_n_0_2_1512_wf
def dot_S8x200x100x512_S1024x512_S8x200x100x1024_3_1_012_0_n_n : DotDims S8x200x100x512 S1024x512 S8x200x100x1024 where
  lhsContracting := [3]
  rhsContracting := [1]
  lhsNonContracting := [0, 1, 2]
  rhsNonContracting := [0]
  lhsBatch := []
  rhsBatch := []
  wf := dot_S8x200x100x512_S1024x512_S8x200x100x1024_3_1_012_0_n_n_wf

class Facts : Prop extends Facts₀ where

variable [Facts]
-- ==== Proof.BodyValue.lean ====
/-
  One grid point's block of logits, entry by entry.
-/
import proofs.«426172_j65343632441485_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BodyValue

open Idealize.ShloMosaic Idealize.ShloMosaic.ValueIdx Cert.KernelIdeal Cert.KernelIdeal.Gen

variable [Cert.KernelIdeal.Facts]
open Cert.KernelIdeal.Facts₀ Cert.KernelIdeal.Facts

/-- The row of a flattened `[800, ·]` array that holds frame `t` of the tile and label position `u`:
    `t * 100 + u`, the row-major position of `(t, u)` in `[8, 100]`. -/
def row (t : Fin 8) (u : Fin 100) : Fin 800 := ⟨t.val * 100 + u.val, by omega⟩

/-! ## The layout operations, each read at an index given by coordinates -/

/-- The stored `[1, 8, 100, 1024]` block at `(0, t, u, v)` is the `[800, 1024]` array it was cast from at row
    `t * 100 + u`, column `v`: the first cast adds a unit axis, the second splits the rows, and both keep the
    row-major position. -/
theorem store_cast_apply (w : FVec Ideal S800x1024 .f32) (h : S800x1024.ShapeCasts S8x100x1024)
    (h' : S8x100x1024.ShapeCasts S1x8x100x1024) (t : Fin 8) (u : Fin 100) (v : Fin 1024) :
    shapeCast S1x8x100x1024 (shapeCast S8x100x1024 w h) h' (ix4 (0 : Fin 1) t u v) = w (ix2 (row t u) v) := by
  refine (shapeCast_abc_1abc_apply _ _ (0 : Fin 1) t u v).trans ?_
  refine shapeCast_apply w _ (ix3 t u v) (ix2 (row t u) v) ?_
  rw [Shape.rowMajor_val_two, Shape.rowMajor_val_three]
  rfl

/-- The bias `[1024]`, viewed `[1, 1024]` and broadcast over the 800 rows, reads the bias at the column. -/
theorem bias_apply (b : FVec Ideal S1024 .f32) (h : S1024.ShapeCasts S1x1024) (h' : S1x1024.Broadcasts S800x1024)
    (p : Fin 800) (v : Fin 1024) :
    broadcastTo S800x1024 (shapeCast S1x1024 b h) h' (ix2 p v) = b (ix1 v) :=
  (broadcastTo_1b_ab_apply _ _ p v).trans (shapeCast_a_1a_apply b _ (0 : Fin 1) v)

/-- The `[8, 100, 512]` array flattened to `[800, 512]` reads, at row `t * 100 + u`, the entry `(t, u, ·)`. -/
theorem flatten_apply (y : FVec Ideal S8x100x512 .f32) (h : S8x100x512.ShapeCasts S800x512)
    (t : Fin 8) (u : Fin 100) (k : Fin 512) :
    shapeCast S800x512 y h (ix2 (row t u) k) = y (ix3 t u k) := by
  refine shapeCast_apply y _ (ix2 (row t u) k) (ix3 t u k) ?_
  rw [Shape.rowMajor_val_two, Shape.rowMajor_val_three]
  rfl

/-- The encoder block `[1, 8, 512]`, viewed `[8, 512]`, then `[8, 1, 512]`, and broadcast along the label axis,
    reads the encoder frame `t` whatever the label position. -/
theorem enc_apply (a : FVec Ideal S1x8x512 .f32) (h : S1x8x512.ShapeCasts S8x512) (h' : S8x512.ShapeCasts S8x1x512)
    (hb : S8x1x512.Broadcasts S8x100x512) (t : Fin 8) (u : Fin 100) (k : Fin 512) :
    broadcastTo S8x100x512 (shapeCast S8x1x512 (shapeCast S8x512 a h) h') hb (ix3 t u k) = a (ix3 (0 : Fin 1) t k) := by
  refine (broadcastTo_apply _ _ (ix3 t u k) (ix3 t (0 : Fin 1) k) fun ax => ?_).trans ?_
  · match ax with
    | ⟨0, _⟩ => show t.val = if (8 : Nat) = 1 then 0 else t.val; rw [if_neg (by decide)]
    | ⟨1, _⟩ => show 0 = if (1 : Nat) = 1 then 0 else u.val; rw [if_pos rfl]
    | ⟨2, _⟩ => show k.val = if (512 : Nat) = 1 then 0 else k.val; rw [if_neg (by decide)]
  · refine (shapeCast_apply _ _ (ix3 t (0 : Fin 1) k) (ix2 t k) ?_).trans (shapeCast_1ab_ab_apply a _ t k)
    rw [Shape.rowMajor_val_two, Shape.rowMajor_val_three]
    show t.val * 512 + k.val = (t.val * 1 + 0) * 512 + k.val
    rw [Nat.mul_one, Nat.add_zero]

/-- The predictor block `[1, 100, 512]`, viewed `[100, 512]` and back, and broadcast along the frame axis, reads the
    label position `u` whatever the frame. -/
theorem pred_apply (b : FVec Ideal S1x100x512 .f32) (h : S1x100x512.ShapeCasts S100x512) (h' : S100x512.ShapeCasts S1x100x512)
    (hb : S1x100x512.Broadcasts S8x100x512) (t : Fin 8) (u : Fin 100) (k : Fin 512) :
    broadcastTo S8x100x512 (shapeCast S1x100x512 (shapeCast S100x512 b h) h') hb (ix3 t u k) = b (ix3 (0 : Fin 1) u k) := by
  rw [shapeCast_shapeCast]
  refine broadcastTo_apply b _ (ix3 t u k) (ix3 (0 : Fin 1) u k) fun ax => ?_
  match ax with
  | ⟨0, _⟩ => show 0 = if (1 : Nat) = 1 then 0 else t.val; rw [if_pos rfl]
  | ⟨1, _⟩ => show u.val = if (100 : Nat) = 1 then 0 else u.val; rw [if_neg (by decide)]
  | ⟨2, _⟩ => show k.val = if (512 : Nat) = 1 then 0 else k.val; rw [if_neg (by decide)]

/-! ## The product -/

/-- The left operand's row is the result's row; -/
theorem lhs_dot_0 (i : S800x1024.Idx) (q : dot_S800x512_S512x1024_S800x1024_1_0_0_1_n_n.contr.Idx) :
    (dot_S800x512_S512x1024_S800x1024_1_0_0_1_n_n.lhsIdx i q 0).val = (i 0).val := by
  unfold DotDims.lhsIdx
  rw [dif_neg (show ¬(0 : Fin S800x512.rank) ∈ dot_S800x512_S512x1024_S800x1024_1_0_0_1_n_n.lhsBatch by decide), dif_pos (show (0 : Fin S800x512.rank) ∈ dot_S800x512_S512x1024_S800x1024_1_0_0_1_n_n.lhsNonContracting by decide)]
  rfl
/-- its column is the contraction index; -/
theorem lhs_dot_1 (i : S800x1024.Idx) (q : dot_S800x512_S512x1024_S800x1024_1_0_0_1_n_n.contr.Idx) :
    (dot_S800x512_S512x1024_S800x1024_1_0_0_1_n_n.lhsIdx i q 1).val = (q ⟨0, by decide⟩).val :=
  dot_S800x512_S512x1024_S800x1024_1_0_0_1_n_n.lhsIdx_val_of_single rfl i q
/-- the right operand's row is the contraction index; -/
theorem rhs_dot_0 (i : S800x1024.Idx) (q : dot_S800x512_S512x1024_S800x1024_1_0_0_1_n_n.contr.Idx) :
    (dot_S800x512_S512x1024_S800x1024_1_0_0_1_n_n.rhsIdx i q 0).val = (q ⟨0, by decide⟩).val :=
  dot_S800x512_S512x1024_S800x1024_1_0_0_1_n_n.rhsIdx_val_of_single rfl i q
/-- and its column is the result's column. -/
theorem rhs_dot_1 (i : S800x1024.Idx) (q : dot_S800x512_S512x1024_S800x1024_1_0_0_1_n_n.contr.Idx) :
    (dot_S800x512_S512x1024_S800x1024_1_0_0_1_n_n.rhsIdx i q 1).val = (i 1).val := by
  unfold DotDims.rhsIdx
  rw [dif_neg (show ¬(1 : Fin S512x1024.rank) ∈ dot_S800x512_S512x1024_S800x1024_1_0_0_1_n_n.rhsBatch by decide), dif_pos (show (1 : Fin S512x1024.rank) ∈ dot_S800x512_S512x1024_S800x1024_1_0_0_1_n_n.rhsNonContracting by decide)]
  rfl

/-- The `[800, 512] × [512, 1024]` product into the zero accumulator, at `(p, v)`: the sum over the 512 features of
    row `p` of the left operand times column `v` of the right. -/
theorem matmul_zero_apply (A : FVec Ideal S800x512 .bf16) (B : FVec Ideal S512x1024 .bf16) (p : Fin 800) (v : Fin 1024) :
    matmul dot_S800x512_S512x1024_S800x1024_1_0_0_1_n_n none A B (constant (F := Ideal) S800x1024 .f32 0x00000000#32) (ix2 p v)
      = ∑ k : Fin 512, A (ix2 p k) * B (ix2 k v) := by
  simp only [matmul]
  rw [Ideal.matmul_constant_zero_apply, ← Equiv.sum_comp (ValueIdx.contrEquiv1 dot_S800x512_S512x1024_S800x1024_1_0_0_1_n_n 512 rfl rfl).symm]
  refine Finset.sum_congr rfl fun k _ => ?_
  have hk := ValueIdx.contrEquiv1_symm_val dot_S800x512_S512x1024_S800x1024_1_0_0_1_n_n 512 rfl rfl k
  have el : dot_S800x512_S512x1024_S800x1024_1_0_0_1_n_n.lhsIdx (ix2 p v) ((ValueIdx.contrEquiv1 dot_S800x512_S512x1024_S800x1024_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S800x512_S512x1024_S800x1024_1_0_0_1_n_n.rhsIdx (ix2 p v) ((ValueIdx.contrEquiv1 dot_S800x512_S512x1024_S800x1024_1_0_0_1_n_n 512 rfl rfl).symm k) = ix2 k v := funext fun a => Fin.ext (by
    match a with
    | ⟨0, _⟩ => exact (rhs_dot_0 _ _).trans hk
    | ⟨1, _⟩ => exact rhs_dot_1 _ _)
  rw [el, er]

/-! ## The operands of the product -/

/-- `tanh` of an array, entry by entry. -/
theorem tanh_apply {s : Shape} {φ : FTy} (y : FVec Ideal s φ) (i : s.Idx) : tanh y i = Ideal.tanh (y i) := rfl

/-- Row `t * 100 + u` of the product's left operand: `tanh` of the sum of encoder frame `t` and predictor position
    `u`, feature by feature (the narrowing to the product's input format is the identity on the ideal values). -/
theorem left_apply (a : FVec Ideal S1x8x512 .f32) (b : FVec Ideal S1x100x512 .f32)
    (ha : S1x8x512.ShapeCasts S8x512) (ha' : S8x512.ShapeCasts S8x1x512) (hab : S8x1x512.Broadcasts S8x100x512)
    (hb : S1x100x512.ShapeCasts S100x512) (hb' : S100x512.ShapeCasts S1x100x512) (hbb : S1x100x512.Broadcasts S8x100x512)
    (hf : S8x100x512.ShapeCasts S800x512) (hlt : FTy.bits .bf16 < FTy.bits .f32) (t : Fin 8) (u : Fin 100) (k : Fin 512) :
    (truncf .bf16 (shapeCast S800x512 (tanh (addf
        (broadcastTo S8x100x512 (shapeCast S8x1x512 (shapeCast S8x512 a ha) ha') hab)
        (broadcastTo S8x100x512 (shapeCast S1x100x512 (shapeCast S100x512 b hb) hb') hbb))) hf) hlt : FVec Ideal S800x512 .bf16)
      (ix2 (row t u) k) = Ideal.tanh (a (ix3 (0 : Fin 1) t k) + b (ix3 (0 : Fin 1) u k)) := by
  rw [truncf_apply, flatten_apply, tanh_apply, addf_apply, enc_apply, pred_apply]

/-- The body's stored block at frame `t` of the tile, label position `u`, vocabulary entry `v`: the inner product over
    the 512 features of `tanh (enc-block (t, ·) + predictor-block (u, ·))` with column `v` of the transposed weights,
    plus the bias at `v`. -/
theorem body_apply (x0 : Vec Ideal S1x8x512 .f32) (x1 : Vec Ideal S1x100x512 .f32) (x2 : Vec Ideal S512x1024 .bf16)
    (x3 : Vec Ideal S1024 .f32) (t : Fin 8) (u : Fin 100) (v : Fin 1024) :
    k0_pay1 (F := Ideal) x0 x1 x2 x3 (ix4 (0 : Fin 1) t u v)
      = (∑ k : Fin 512, Ideal.tanh (x0 (ix3 (0 : Fin 1) t k) + x1 (ix3 (0 : Fin 1) u k)) * x2 (ix2 k v)) + x3 (ix1 v) := by
  unfold k0_pay1
  refine (store_cast_apply _ _ _ t u v).trans ?_
  rw [addf_apply, bias_apply, matmul_zero_apply, shapeCast_self]
  refine congrArg (· + x3 (ix1 v)) (Finset.sum_congr rfl fun k _ => ?_)
  rw [left_apply]

end Cert.KernelIdeal.BodyValue

end
-- ==== Proof.JoinerSpec.lean ====
/-
  The joiner of an RNN transducer as one function of its four arrays, on the extended reals.

  For an encoder array `enc` (batch 8 × 200 frames × 512 features), a predictor array `pe` (batch 8 × 100 label
  positions × 512 features — the embedding rows the label prefix selects), a weight matrix `w` (1024 vocabulary
  rows × 512 features) and a bias `bias` (1024 entries), the logit at (b, t, u, v) is

      Σ_k tanh (enc (b, t, k) + pe (b, u, k)) · w (v, k)  +  bias v.

  Both programs compute exactly this sum, term by term in the same order, so no law of the extended reals beyond
  reading each operation at an index is needed to compare them.
-/
import Idealize.ShloMosaic.PureOps.Ideal
import Idealize.ShloMosaic.Lib.ValueIdx

noncomputable section

open scoped BigOperators

namespace Cert.Joiner

open Idealize.ShloMosaic Idealize.ShloMosaic.ValueIdx

/-- The logits of the joiner: at (b, t, u, v) the inner product over the 512 features of
    `tanh (enc (b, t, ·) + pe (b, u, ·))` with row `v` of `w`, plus `bias v`. -/
def logits (enc : (⟨3, ![8, 200, 512]⟩ : Shape).Idx → EReal) (pe : (⟨3, ![8, 100, 512]⟩ : Shape).Idx → EReal)
    (w : (⟨2, ![1024, 512]⟩ : Shape).Idx → EReal) (bias : (⟨1, ![1024]⟩ : Shape).Idx → EReal) :
    (⟨4, ![8, 200, 100, 1024]⟩ : Shape).Idx → EReal :=
  fun i => (∑ k : Fin 512, Ideal.tanh (enc (ix3 (i 0) (i 1) k) + pe (ix3 (i 0) (i 2) k)) * w (ix2 (i 3) k))
    + bias (ix1 (i 3))

/-- The logits at an index given by its four coordinates. -/
theorem logits_apply (enc : (⟨3, ![8, 200, 512]⟩ : Shape).Idx → EReal) (pe : (⟨3, ![8, 100, 512]⟩ : Shape).Idx → EReal)
    (w : (⟨2, ![1024, 512]⟩ : Shape).Idx → EReal) (bias : (⟨1, ![1024]⟩ : Shape).Idx → EReal)
    (b : Fin 8) (t : Fin 200) (u : Fin 100) (v : Fin 1024) :
    logits enc pe w bias (ix4 b t u v)
      = (∑ k : Fin 512, Ideal.tanh (enc (ix3 b t k) + pe (ix3 b u k)) * w (ix2 v k)) + bias (ix1 v) := rfl

end Cert.Joiner

end
-- ==== Proof.LogitsArray.lean ====
/-
  From the grid's blocks to the whole array of logits.

  The grid has 8 × 25 points; point (b, τ) stages frames 8τ … 8τ+7 of batch b of the encoder array, all label positions
  of batch b of the predictor rows, the whole transposed weights and the whole bias, and writes back the block of the
  output at batch b, frames 8τ … 8τ+7.  Each entry the body stores is the joiner's logit of the staged blocks; a block's
  entry is the array's entry at block index × block size + the coordinate inside the block; so what a point writes back
  is that block of the joiner's logits of the whole arrays.  The 200 blocks tile the output, hence the output array
  ends as the logits everywhere.
-/
import proofs.«426172_j65343632441485_1_alg».proof.Proof.Gen.KernelIdeal.Value
import proofs.«426172_j65343632441485_1_alg».proof.Proof.BodyValue
import proofs.«426172_j65343632441485_1_alg».proof.Proof.JoinerSpec

noncomputable section

open scoped BigOperators

namespace Cert.KernelIdeal.LogitsArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The arrays the kernel is launched on, and each point's blocks of them -/

/-- The encoder array. -/
abbrev encArr (c : Dev nD) : S8x200x512.Idx → EReal := V m c main_arg0
/-- The predictor rows. -/
abbrev predArr (c : Dev nD) : S8x100x512.Idx → EReal := V m c main_v0
/-- The transposed weights, features × vocabulary. -/
abbrev wtArr (c : Dev nD) : S512x1024.Idx → EReal := V m c main_v2
/-- The bias. -/
abbrev biasArr (c : Dev nD) : S1024.Idx → EReal := V m c main_arg4

/-- The weights back as vocabulary × features: entry (v, k) is the transposed array's (k, v). -/
def wArr (c : Dev nD) : S1024x512.Idx → EReal := fun i => wtArr m c (ix2 (i 1) (i 0))

/-- The joiner's logits of the launched arrays. -/
def logitsArr (c : Dev nD) : S8x200x100x1024.Idx → EReal :=
  Cert.Joiner.logits (encArr m c) (predArr m c) (wArr m c) (biasArr m c)

abbrev encBlk (c : Dev nD) (t : Fin cfg0.N) : Vec Ideal S1x8x512 .f32 := iblk m c 0 t
abbrev predBlk (c : Dev nD) (t : Fin cfg0.N) : Vec Ideal S1x100x512 .f32 := iblk m c 1 t
abbrev wtBlk (c : Dev nD) (t : Fin cfg0.N) : Vec Ideal S512x1024 .bf16 := iblk m c 2 t
abbrev biasBlk (c : Dev nD) (t : Fin cfg0.N) : Vec Ideal S1024 .f32 := iblk m c 3 t

/-- The printed index maps over the 200 points: the encoder block moves with the output block on the batch and frame
    axes, the predictor block on the batch axis, every other block index is 0, and the output's batch index is below 8
    and its frame-tile index below 25. -/
theorem index_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0
    ∧ win0_1.index t (2 : Fin 3) = 0
    ∧ win0_2.index t (0 : Fin 2) = 0 ∧ win0_2.index t (1 : Fin 2) = 0
    ∧ win0_3.index t (0 : Fin 1) = 0
    ∧ win0_4.index t (2 : Fin 4) = 0 ∧ win0_4.index t (3 : Fin 4) = 0
    ∧ win0_4.index t (0 : Fin 4) ≤ 7 ∧ win0_4.index t (1 : Fin 4) ≤ 24 :=
  (by decide +kernel : ∀ t : Fin grid0.N, _)

/-- Every (batch, frame tile) is some point's output block. -/
theorem index_onto : ∀ (q0 : Fin 8) (q1 : Fin 25), ∃ t : Fin cfg0.N, win0_4.index t = ![q0.val, q1.val, 0, 0] :=
  (by decide +kernel : ∀ (q0 : Fin 8) (q1 : Fin 25), ∃ t : Fin grid0.N, win0_4.index t = ![q0.val, q1.val, 0, 0])

/-- Frame `f` of the tile and feature `k` of the encoder block is the array's entry at the point's batch, frame
    8 · tile + f, feature k. -/
theorem encBlk_apply (c : Dev nD) (t : Fin cfg0.N) (f : Fin 8) (k : Fin 512) (i : S8x200x512.Idx)
    (h0 : (i 0).val = win0_4.index t (0 : Fin 4)) (h1 : (i 1).val = win0_4.index t (1 : Fin 4) * 8 + f.val)
    (h2 : (i 2).val = k.val) : encBlk m c t (ix3 (0 : Fin 1) f k) = encArr m c i := by
  obtain ⟨e0, e1, e2, -⟩ := index_facts t
  show V m c main_arg0 (((cfg0.win 0).blk t).view.emb (ix3 (0 : Fin 1) f k)) = V m c main_arg0 i
  refine congrArg _ (funext fun a => Fin.ext ?_)
  match a with
  | ⟨0, _⟩ => show win0_0.index t (0 : Fin 3) * 1 + 1 * 0 = (i 0).val; omega
  | ⟨1, _⟩ => show win0_0.index t (1 : Fin 3) * 8 + 1 * f.val = (i 1).val; omega
  | ⟨2, _⟩ => show win0_0.index t (2 : Fin 3) * 512 + 1 * k.val = (i 2).val; omega

/-- Label position `u` and feature `k` of the predictor block is the array's entry at the point's batch. -/
theorem predBlk_apply (c : Dev nD) (t : Fin cfg0.N) (u : Fin 100) (k : Fin 512) (i : S8x100x512.Idx)
    (h0 : (i 0).val = win0_4.index t (0 : Fin 4)) (h1 : (i 1).val = u.val) (h2 : (i 2).val = k.val) :
    predBlk m c t (ix3 (0 : Fin 1) u k) = predArr m c i := by
  obtain ⟨-, -, -, e0, e1, e2, -⟩ := index_facts t
  show V m c main_v0 (((cfg0.win 1).blk t).view.emb (ix3 (0 : Fin 1) u k)) = V m c main_v0 i
  refine congrArg _ (funext fun a => Fin.ext ?_)
  match a with
  | ⟨0, _⟩ => show win0_1.index t (0 : Fin 3) * 1 + 1 * 0 = (i 0).val; omega
  | ⟨1, _⟩ => show win0_1.index t (1 : Fin 3) * 100 + 1 * u.val = (i 1).val; omega
  | ⟨2, _⟩ => show win0_1.index t (2 : Fin 3) * 512 + 1 * k.val = (i 2).val; omega

/-- The weights' block is the whole transposed array. -/
theorem wtBlk_apply (c : Dev nD) (t : Fin cfg0.N) (k : Fin 512) (v : Fin 1024) :
    wtBlk m c t (ix2 k v) = wtArr m c (ix2 k v) := by
  obtain ⟨-, -, -, -, -, -, e0, e1, -⟩ := index_facts t
  show V m c main_v2 (((cfg0.win 2).blk t).view.emb (ix2 k v)) = V m c main_v2 (ix2 k v)
  refine congrArg _ (funext fun a => Fin.ext ?_)
  match a with
  | ⟨0, _⟩ => show win0_2.index t (0 : Fin 2) * 512 + 1 * k.val = k.val; omega
  | ⟨1, _⟩ => show win0_2.index t (1 : Fin 2) * 1024 + 1 * v.val = v.val; omega

/-- The bias block is the whole bias. -/
theorem biasBlk_apply (c : Dev nD) (t : Fin cfg0.N) (v : Fin 1024) :
    biasBlk m c t (ix1 v) = biasArr m c (ix1 v) := by
  obtain ⟨-, -, -, -, -, -, -, -, e0, -⟩ := index_facts t
  show V m c main_arg4 (((cfg0.win 3).blk t).view.emb (ix1 v)) = V m c main_arg4 (ix1 v)
  refine congrArg _ (funext fun a => Fin.ext ?_)
  match a with
  | ⟨0, _⟩ => show win0_3.index t (0 : Fin 1) * 1024 + 1 * v.val = v.val; omega

/-! ## What a point writes back -/

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a; rfl

/-- Point `t` writes back block `t` of the joiner's logits of the launched arrays. -/
theorem flushed_eq (c : Dev nD) (t : Fin cfg0.N) :
    (dats m 0 c).flushed 4 t = ((cfg0.win 4).blk t).view.read (Elt Ideal) (logitsArr m c) := by
  rw [Value.flushed4]
  unfold out0_4
  rw [View.canon_unit_zero zeros4]
  simp only [View.ld_unit_zero (S := S1x8x512) zeros3, View.ld_unit_zero (S := S1x100x512) zeros3,
    View.ld_unit_zero (S := S512x1024) zeros2, View.ld_unit_zero (S := S1024) zeros1]
  obtain ⟨-, -, -, -, -, -, -, -, -, e2, e3, l0, l1⟩ := index_facts t
  refine funext fun (j : S1x8x100x1024.Idx) => ?_
  obtain ⟨z, f, u, v, rfl⟩ : ∃ (z : Fin 1) (f : Fin 8) (u : Fin 100) (v : Fin 1024), j = ix4 z f u v :=
    ⟨j 0, j 1, j 2, j 3, eq_ix4 j⟩
  obtain rfl : z = 0 := Subsingleton.elim _ _
  have hb : win0_4.index t (0 : Fin 4) < 8 := by omega
  have hf : win0_4.index t (1 : Fin 4) * 8 + f.val < 200 := by have := f.isLt; omega
  have hI : ((cfg0.win 4).blk t).view.emb (ix4 (0 : Fin 1) f u v)
      = ix4 (⟨win0_4.index t (0 : Fin 4), hb⟩ : Fin 8) (⟨win0_4.index t (1 : Fin 4) * 8 + f.val, hf⟩ : Fin 200) u v := by
    funext a; apply Fin.ext
    match a with
    | ⟨0, _⟩ => show win0_4.index t (0 : Fin 4) * 1 + 1 * 0 = win0_4.index t (0 : Fin 4); omega
    | ⟨1, _⟩ => show win0_4.index t (1 : Fin 4) * 8 + 1 * f.val = win0_4.index t (1 : Fin 4) * 8 + f.val; omega
    | ⟨2, _⟩ => show win0_4.index t (2 : Fin 4) * 100 + 1 * u.val = u.val; omega
    | ⟨3, _⟩ => show win0_4.index t (3 : Fin 4) * 1024 + 1 * v.val = v.val; omega
  show k0_pay1 (encBlk m c t) (predBlk m c t) (wtBlk m c t) (biasBlk m c t) (ix4 (0 : Fin 1) f u v)
    = logitsArr m c (((cfg0.win 4).blk t).view.emb (ix4 (0 : Fin 1) f u v))
  rw [BodyValue.body_apply, hI]
  unfold logitsArr
  rw [Cert.Joiner.logits_apply]
  refine congrArg₂ (· + ·) (Finset.sum_congr rfl fun k _ => ?_) (biasBlk_apply m c t v)
  rw [encBlk_apply m c t f k (ix3 (⟨win0_4.index t (0 : Fin 4), hb⟩ : Fin 8)
      (⟨win0_4.index t (1 : Fin 4) * 8 + f.val, hf⟩ : Fin 200) k) rfl rfl rfl,
    predBlk_apply m c t u k (ix3 (⟨win0_4.index t (0 : Fin 4), hb⟩ : Fin 8) u k) rfl rfl rfl, wtBlk_apply m c t k v]
  rfl

/-! ## The blocks tile the output -/

/-- An index of the output is in point `t`'s block iff each coordinate is in the block's range on its axis. -/
theorem mem_blk (t : Fin cfg0.N) (i : S8x200x100x1024.Idx) :
    i ∈ ((cfg0.win 4).blk t).view.set ↔ ∀ a : Fin 4, win0_4.index t a * S1x8x100x1024.size a ≤ (i a).val
      ∧ (i a).val < win0_4.index t a * S1x8x100x1024.size a + S1x8x100x1024.size a := by
  show i ∈ ((View.whole main_v3).slice (win0_4.rect t)).set ↔ _
  rw [View.set_slice_whole, Rect.mem_set_unit]
  exact Iff.rfl

/-- Every index of the output is in the block of the point at its batch and frame tile (frame / 8). -/
theorem covered (i : S8x200x100x1024.Idx) :
    ∃ t : Fin cfg0.N, (cfg0.win 4).flush t = true ∧ i ∈ ((cfg0.win 4).blk t).view.set := by
  have hi0 : (i 0).val < 8 := (i 0).isLt
  have hi1 : (i 1).val < 200 := (i 1).isLt
  have hi2 : (i 2).val < 100 := (i 2).isLt
  have hi3 : (i 3).val < 1024 := (i 3).isLt
  obtain ⟨t, ht⟩ := index_onto ⟨(i 0).val, hi0⟩ ⟨(i 1).val / 8, by omega⟩
  have q0 : win0_4.index t (0 : Fin 4) = (i 0).val := congrFun ht 0
  have q1 : win0_4.index t (1 : Fin 4) = (i 1).val / 8 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 8 ≤ (i 1).val ∧ (i 1).val < win0_4.index t (1 : Fin 4) * 8 + 8; omega
  | ⟨2, _⟩ => show win0_4.index t (2 : Fin 4) * 100 ≤ (i 2).val ∧ (i 2).val < win0_4.index t (2 : Fin 4) * 100 + 100; omega
  | ⟨3, _⟩ => show win0_4.index t (3 : Fin 4) * 1024 ≤ (i 3).val ∧ (i 3).val < win0_4.index t (3 : Fin 4) * 1024 + 1024; omega

/-- The output array after the run is the joiner's logits of the launched arrays. -/
theorem final (c : Dev nD) : (dats m 0 c).arrAt 4 cfg0.N = logitsArr m c :=
  (dats m 0 c).arrAt_eq_of_cover 4 (logitsArr m c) (fun t _ => flushed_eq m c t) covered

end Cert.KernelIdeal.LogitsArray

end
-- ==== Proof.TakeInRange.lean ====
/-
  The label prefix inside the table's index range, and what the fill-mode row lookup does there.
-/
import proofs.«426172_j65343632441485_1_alg».proof.KernelIdeal
import proofs.«426172_j65343632441485_1_alg».proof.Pre_finite_inputs
import Idealize.ShloMosaic.Lib.ReduceAll
import Idealize.ShloMosaic.Lib.ValueIdx

noncomputable section

namespace Cert.KernelIdeal.TakeInRange

open Idealize.ShloMosaic Idealize.ShloMosaic.ValueIdx Cert.KernelIdeal

variable [Cert.KernelIdeal.Facts]
open Cert.KernelIdeal.Facts₀ Cert.KernelIdeal.Facts

/-- The row numbers the lookup starts from: a negative label counts from the table's end (+1024), as a column. -/
def startRows (p : IVec S8x100 32) : IVec S8x100x1 32 :=
  broadcastInDim S8x100x1 ![0, 1] bcast_S8x100_S8x100x1_0_1
    (select (cmpi .slt p (broadcastInDim S8x100 ![] bcast_S_S8x100 (constantI S_ 32 0#32)))
      (addi p (broadcastInDim S8x100 ![] bcast_S_S8x100 (constantI S_ 32 1024#32))) p)

/-- The lookup's in-range mask, one bit per label position, spread along the 512 features. -/
def inRangeMask (p : IVec S8x100 32) : IVec S8x100x512 1 :=
  broadcastInDim S8x100x512 ![0, 1] bcast_S8x100_S8x100x512_0_1
    (Host.reduce IntOp.andi
      (andi (cmpi .sge (startRows p) (broadcastInDim S8x100x1 ![] bcast_S_S8x100x1 (constantI S_ 32 0#32)))
        (cmpi .sle (startRows p) (broadcastInDim S8x100x1 ![0, 1, 2] bcast_S1x1x1_S8x100x1_0_1_2
          (broadcastInDim S1x1x1 ![2] bcast_S1_S1x1x1_2 (constantI S1 32 1023#32)))))
      (constantI S_ 1 1#1) reducesTo_S8x100x1_S8x100_d2 h_S_)

/-- A left fold by `and` from 1 over `i1` words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h11 : IntOp.andi 1#1 1#1 = 1#1 := by decide
    rw [List.foldl_cons, h a (List.mem_cons_self ..), h11]
    exact foldl_andi_one f l fun n hn => h n (List.mem_cons_of_mem _ hn)

/-- One label x with -1024 ≤ x < 1024 (signed): its start row q = (x <s 0 ? x + 1024 : x) has 0 ≤ q ≤ 1023.
    For x < 0 the sum x + 1024 lies in [0, 1024), far from the 32-bit wrap, so the word sum is the integer sum. -/
theorem startRow_toInt (x : BitVec 32) (hlo : -1024 ≤ x.toInt) (hhi : x.toInt < 1024) :
    0 ≤ (Scalar.select (IntOp.cmpi .slt x 0#32) (IntOp.addi x 1024#32) x).toInt ∧
      (Scalar.select (IntOp.cmpi .slt x 0#32) (IntOp.addi x 1024#32) x).toInt ≤ 1023 := by
  have e0 : (0#32 : BitVec 32).toInt = 0 := by decide
  have e2 : (1024#32 : BitVec 32).toInt = 1024 := by decide
  by_cases hneg : IntOp.cmpi .slt x 0#32 = 1#1
  · have hn : x.toInt < 0 := by have := IntOp.cmpi_slt.1 hneg; rwa [e0] at this
    rw [hneg, select_one]
    have hs : (IntOp.addi x 1024#32).toInt = x.toInt + 1024 := by
      show (x + 1024#32).toInt = _
      rw [BitVec.toInt_add, e2, Int.bmod_def]; omega
    omega
  · have hn : ¬ x.toInt < 0 := fun hx => hneg (IntOp.cmpi_slt.2 (by rwa [e0]))
    have hq : Scalar.select (IntOp.cmpi .slt x 0#32) (IntOp.addi x 1024#32) x = x := if_neg hneg
    rw [hq]; omega

/-- The same, as the two compares the lookup makes and their `and`. -/
theorem startRow_inRange (x : BitVec 32) (hlo : IntOp.cmpi .sge x 4294966272#32 = 1#1)
    (hhi : IntOp.cmpi .slt x 1024#32 = 1#1) :
    IntOp.andi (IntOp.cmpi .sge (Scalar.select (IntOp.cmpi .slt x 0#32) (IntOp.addi x 1024#32) x) 0#32)
      (IntOp.cmpi .sle (Scalar.select (IntOp.cmpi .slt x 0#32) (IntOp.addi x 1024#32) x) 1023#32) = 1#1 := by
  have e0 : (0#32 : BitVec 32).toInt = 0 := by decide
  have e1 : (4294966272#32 : BitVec 32).toInt = -1024 := by decide
  have e2 : (1024#32 : BitVec 32).toInt = 1024 := by decide
  have e3 : (1023#32 : BitVec 32).toInt = 1023 := by decide
  have hlo' := IntOp.cmpi_sge.1 hlo; rw [e1] at hlo'
  have hhi' := IntOp.cmpi_slt.1 hhi; rw [e2] at hhi'
  obtain ⟨h0, h1⟩ := startRow_toInt x hlo' hhi'
  rw [IntOp.andi_eq_one, IntOp.cmpi_sge, IntOp.cmpi_sle, e0, e3]
  exact ⟨h0, h1⟩

/-- With every label in [-1024, 1024) the mask is all ones. -/
theorem inRangeMask_eq_one (p : IVec S8x100 32) (hlo : ∀ i, IntOp.cmpi .sge (p i) 4294966272#32 = 1#1)
    (hhi : ∀ i, IntOp.cmpi .slt (p i) 1024#32 = 1#1) (j : S8x100x512.Idx) : inRangeMask p j = 1#1 := by
  -- the outer broadcast reads the reduce at (j 0, j 1); the reduce is a fold by `and` from 1 over the one start row there
  show Host.reduce IntOp.andi _ _ _ _ _ = 1#1
  rw [Host.reduce_eq_foldl]
  refine foldl_andi_one _ _ fun n _ => ?_
  exact startRow_inRange (p _) (hlo _) (hhi _)

/-- So the masked lookup is the lookup. -/
theorem select_inRange {α : Type} (p : IVec S8x100 32) (hlo : ∀ i, IntOp.cmpi .sge (p i) 4294966272#32 = 1#1)
    (hhi : ∀ i, IntOp.cmpi .slt (p i) 1024#32 = 1#1) (g fill : S8x100x512.Idx → α) :
    select (inRangeMask p) g fill = g := by
  funext j
  show Scalar.select (inRangeMask p j) (g j) (fill j) = g j
  rw [inRangeMask_eq_one p hlo hhi j]; exact select_one _ _

end Cert.KernelIdeal.TakeInRange

namespace Cert.Pre_finite_inputs.Decode

open Idealize.ShloMosaic

variable [Cert.Pre_finite_inputs.Facts]

/-- The scalar shape has one index. -/
instance : Subsingleton Cert.Pre_finite_inputs.S_.Idx := ⟨fun a b => funext fun d => d.elim0⟩

/-- The precondition's last two conjuncts, read back: every label is at least -1024 and below 1024. -/
theorem label_bounds {F : FTy → Type} [FloatOps F] (a0 : FVec F Cert.Pre_finite_inputs.S8x200x512 .f32)
    (p : IVec Cert.Pre_finite_inputs.S8x100 32) (a2 a3 : FVec F Cert.Pre_finite_inputs.S1024x512 .f32)
    (a4 : FVec F Cert.Pre_finite_inputs.S1024 .f32)
    (h : Cert.Pre_finite_inputs.fn (F := F) a0 p a2 a3 a4 = fun _ => 1#1) :
    (∀ i, IntOp.cmpi .sge (p i) 4294966272#32 = 1#1) ∧ (∀ i, IntOp.cmpi .slt (p i) 1024#32 = 1#1) := by
  have h0 := congrFun h ValueIdx.ix0
  dsimp only [Cert.Pre_finite_inputs.fn, Cert.Pre_finite_inputs.fn_part1, andi] at h0
  -- the result is ((… ∧ all(p ≥ -1024)) ∧ all(p < 1024)): split the two outer conjunctions
  obtain ⟨h1, hB⟩ := IntOp.andi_eq_one.1 h0
  obtain ⟨_, hA⟩ := IntOp.andi_eq_one.1 h1
  exact ⟨fun i => Host.reduce_andi_all _ _ _ _ _ hA i, fun i => Host.reduce_andi_all _ _ _ _ _ hB i⟩

end Cert.Pre_finite_inputs.Decode

end
-- ==== Proof.LibHostCalls.lean ====
/-
  Reading back host lines that came from a module-local function (a `func.call` such as jnp.take's `@_take` or jnp.clip's
  `@clip`, whose operations are the typed-reference builders `TRef.unary`, `TRef.binary`, …).

  A typed builder writes its result through `TRef.toBuf` and reads its operands through `TRef.ofBuf`, both casts along the
  reference's `ty_eq`.  A value passed from one operation of the function to the next is therefore wrapped
  `ofBuf (toBuf v)`: moved to the buffer's own type and back.  `cast_round` says such a round trip is the value, whatever
  the two equalities' proofs are, so `simp only [TRef.toBuf, TRef.ofBuf, cast_round]` cancels every pair syntactically,
  without looking at any buffer's type.  What is left afterwards is at most one cast around the whole result — removed by
  `refine eq_of_heq ((cast_heq _ _).trans (heq_of_eq ?_))` — and casts around the values read from the valuation, each
  rewritten by a local equation `∀ h, cast h (W b) = W b := fun _ => rfl` stated at the buffer's literal type.
  A long line is best read in parts, each from an arbitrary valuation, joined by the library's `StableHlo.after_append`.
-/
import Idealize.ShloMosaic.Lib.StableHlo.Run

noncomputable section

namespace HostCalls

open Idealize.ShloMosaic Idealize.ShloMosaic.StableHlo

/-- A value moved to another type along an equality and back is the value, whatever the two equalities' proofs. -/
theorem cast_round {A B : Type} (h1 : A = B) (h2 : B = A) (v : A) : cast h2 (cast h1 v) = v := by
  subst h1; rfl

end HostCalls

end
-- ==== Proof.HostPrefix.lean ====
/-
  What the host lines before the kernel leave in the two arrays they compute for it: the predictor rows (the embedding
  rows the label prefix selects, masked by the lookup's in-range test) and the weights transposed.
-/
import proofs.«426172_j65343632441485_1_alg».proof.Proof.Gen.KernelIdeal.Frame
import proofs.«426172_j65343632441485_1_alg».proof.Proof.TakeInRange
import Idealize.ShloMosaic.Lib.StableHlo.Run
import proofs.«426172_j65343632441485_1_alg».proof.Proof.LibHostCalls

noncomputable section

namespace Cert.KernelIdeal.HostPrefix

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The predictor rows as the kernel finds them: where the lookup's mask is set, the embedding rows gathered at the
    start rows; elsewhere the lookup's fill value. -/
theorem predictor_rows (c : Dev nD) :
    (V m c main_v0 : S8x100x512.Idx → Elt F .f32)
      = select (TakeInRange.inRangeMask (m ((c : Thread nD τ).loc main_arg1)))
          (Host.gather gather_S1024x512_S8x100x1_S8x100x512_2_0_n_n_0_2_1512 (m ((c : Thread nD τ).loc main_arg2))
            (TakeInRange.startRows (m ((c : Thread nD τ).loc main_arg1))))
          (broadcastInDim S8x100x512 ![] bcast_S_S8x100x512 (constant (F := F) S_ .f32 0x7FC00000#32)) := by
  dsimp only [Gen.V]
  simp only [Gen.hostOps0, Gen.hostOps0_1, List.flatten_cons, List.flatten_nil, List.append_nil, List.cons_append,
    List.nil_append]
  after_results_simp
  -- a value handed from one line of the lookup to the next is moved to its buffer's type and back: the identity
  simp only [TRef.toBuf, TRef.ofBuf, HostCalls.cast_round]
  refine eq_of_heq ((cast_heq _ _).trans (heq_of_eq ?_))
  have labels : ∀ h, cast h (m (c, Proc.tc.devRef main_arg1))
      = (m ((c : Thread nD τ).loc main_arg1) : S8x100.Idx → BitVec 32) := fun _ => rfl
  have table : ∀ h, cast h (m (c, Proc.tc.devRef main_arg2))
      = (m ((c : Thread nD τ).loc main_arg2) : S1024x512.Idx → Elt F .f32) := fun _ => rfl
  simp only [labels, table]
  unfold TakeInRange.inRangeMask TakeInRange.startRows
  rfl

/-- The weights as the kernel finds them: the weight matrix transposed (the change of float format is a separate
    operation, the identity on the extended reals). -/
theorem weights_transposed (c : Dev nD) :
    (V m c main_v2 : S512x1024.Idx → Elt F .bf16)
      = truncf .bf16 (transpose S512x1024 [1, 0] (m ((c : Thread nD τ).loc main_arg3)) transposes_S1024x512_S512x1024_1_0)
          bitsLt_bf16_f32 := by
  dsimp only [Gen.V]
  simp only [Gen.hostOps0, Gen.hostOps0_1, List.flatten_cons, List.flatten_nil, List.append_nil, List.cons_append,
    List.nil_append]
  after_results

end Cert.KernelIdeal.HostPrefix

end
-- ==== Proof.KernelRun.lean ====
/-
  The kernel's run, with its result named as the joiner's logits of the ARGUMENT arrays.

  The kernel is launched on the encoder array and the bias as given, on the weights transposed, and on the predictor
  rows the lookup produced.  Transposing back gives the weights; and with every label inside [-1024, 1024) the lookup's
  in-range mask is all ones, so the predictor rows are the embedding rows gathered at the start rows.
-/
import proofs.«426172_j65343632441485_1_alg».proof.Proof.LogitsArray
import proofs.«426172_j65343632441485_1_alg».proof.Proof.HostPrefix
import Idealize.ShloMosaic.Lib.ValueLayout

noncomputable section

namespace Cert.KernelIdeal.KernelRun

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The embedding rows the label prefix selects: row `p` if `p ≥ 0`, row `p + 1024` if `p < 0`. -/
def gathered (c : Dev nD) : S8x100x512.Idx → EReal :=
  Host.gather gather_S1024x512_S8x100x1_S8x100x512_2_0_n_n_0_2_1512 (m ((c : Thread nD τ).loc main_arg2))
    (TakeInRange.startRows (m ((c : Thread nD τ).loc main_arg1)))

/-- The launched weights, transposed back, are the weight matrix. -/
theorem wArr_eq (c : Dev nD) : LogitsArray.wArr m c = m ((c : Thread nD τ).loc main_arg3) := by
  funext i
  unfold LogitsArray.wArr
  show (V m c main_v2 : S512x1024.Idx → EReal) (ix2 (i 1) (i 0)) = _
  rw [HostPrefix.weights_transposed m c, truncf_apply]
  exact (transpose_ix2_apply (a := 1024) (b := 512) (m ((c : Thread nD τ).loc main_arg3))
    transposes_S1024x512_S512x1024_1_0 (i 1) (i 0)).trans (congrArg _ (eq_ix2 i).symm)

/-- With the labels in range, the logits of the launched arrays are the logits of the arguments. -/
theorem logitsArr_eq (c : Dev nD)
    (hlo : ∀ i, IntOp.cmpi .sge (m ((c : Thread nD τ).loc main_arg1) i) 4294966272#32 = 1#1)
    (hhi : ∀ i, IntOp.cmpi .slt (m ((c : Thread nD τ).loc main_arg1) i) 1024#32 = 1#1) :
    LogitsArray.logitsArr m c = Cert.Joiner.logits (m ((c : Thread nD τ).loc main_arg0)) (gathered m c)
      (m ((c : Thread nD τ).loc main_arg3)) (m ((c : Thread nD τ).loc main_arg4)) := by
  unfold LogitsArray.logitsArr
  rw [wArr_eq]
  show Cert.Joiner.logits (V m c main_arg0) (V m c main_v0) _ (V m c main_arg4) = _
  rw [V_main_arg0, V_main_arg4, HostPrefix.predictor_rows, TakeInRange.select_inRange _ hlo hhi]
  rfl

/-- Every weakly fair execution of the kernel's program from a memory whose labels are in range terminates with the
    output array at the joiner's logits of the arguments and the arguments unchanged. -/
theorem run (hlo : ∀ (c : Dev nD) i, IntOp.cmpi .sge (m ((c : Thread nD τ).loc main_arg1) i) 4294966272#32 = 1#1)
    (hhi : ∀ (c : Dev nD) i, IntOp.cmpi .slt (m ((c : Thread nD τ).loc main_arg1) i) 1024#32 = 1#1) :
    θ_run defs (onTc (τ := τ) (main (F := Ideal))) ⟨m, fun _ => 0, ρ⟩ fun r => ∀ c : Dev nD,
      r.2.mem ((c : Thread nD τ).loc main_v3) = Cert.Joiner.logits (m ((c : Thread nD τ).loc main_arg0)) (gathered m c)
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨(h c).1.trans ((LogitsArray.final m c).trans (logitsArr_eq m c (hlo c) (hhi c))), (h c).2⟩)
    (Value.run_blocks m ρ)

end Cert.KernelIdeal.KernelRun

end
-- ==== Proof.ReferenceValue.lean ====
/-
  The reference's result is the joiner's logits of its arrays, with the predictor array the rows its lookup returns.

  Read one operation at a time: the final add is the matrix product plus the bias spread along the first three axes;
  the product at (b, t, u, v) sums, over the feature k, the tanh array at (b, t, u, k) times the weights at (v, k); the
  tanh array is tanh of the encoder array spread along the label axis plus the looked-up rows spread along the frame
  axis.  Every index function of the broadcasts keeps the coordinates it names, so each term is the specification's.
-/
import proofs.«426172_j65343632441485_1_alg».proof.Proof.Gen.ReferenceIdeal.Read
import proofs.«426172_j65343632441485_1_alg».proof.Proof.JoinerSpec

noncomputable section

open scoped BigOperators

namespace Cert.ReferenceIdeal.RefValue

open Cert.ReferenceIdeal Cert.ReferenceIdeal.Gen Cert.ReferenceIdeal.Read Idealize.ShloMosaic Idealize.ShloMosaic.ValueIdx

variable [Cert.ReferenceIdeal.Facts]

/-- The encoder entry the tanh array's (b, t, u, k) reads: (b, t, k). -/
theorem enc_index (i : S8x200x100x1024.Idx) (k : Fin 512) :
    idx_main_v7 (idx_main_v9 (lidx_main_v13 i k)) = ix3 (i 0) (i 1) k :=
  funext fun a => Fin.ext (by match a with | ⟨0, _⟩ => rfl | ⟨1, _⟩ => rfl | ⟨2, _⟩ => rfl)

/-- The looked-up row entry it reads: (b, u, k). -/
theorem row_index (i : S8x200x100x1024.Idx) (k : Fin 512) :
    idx_main_v8 (idx_main_v10 (lidx_main_v13 i k)) = ix3 (i 0) (i 2) k :=
  funext fun a => Fin.ext (by match a with | ⟨0, _⟩ => rfl | ⟨1, _⟩ => rfl | ⟨2, _⟩ => rfl)

/-- The weight entry the product's (b, t, u, v) reads at feature k: (v, k). -/
theorem weight_index (i : S8x200x100x1024.Idx) (k : Fin 512) : ridx_main_v13 i k = ix2 (i 3) k :=
  funext fun a => Fin.ext (by match a with | ⟨0, _⟩ => rfl | ⟨1, _⟩ => rfl)

/-- The bias entry the result's (b, t, u, v) reads: v. -/
theorem bias_index (i : S8x200x100x1024.Idx) : idx_main_v14 (idx_main_v15 i) = ix1 (i 3) :=
  funext fun a => Fin.ext (by match a with | ⟨0, _⟩ => rfl)

/-- The reference's last stage is the joiner's logits of the encoder array, the looked-up rows, the weights and the
    bias. -/
theorem reference_eq (x0 : (⟨S8x200x512, .f32⟩ : BufTy).Contents (Elt Ideal)) (x1 : (⟨S8x100, .i32⟩ : BufTy).Contents (Elt Ideal))
    (x2 x3 : (⟨S1024x512, .f32⟩ : BufTy).Contents (Elt Ideal)) (x4 : (⟨S1024, .f32⟩ : BufTy).Contents (Elt Ideal)) :
    val_main_v16 (F := Ideal) x0 x1 x2 x3 x4 = Cert.Joiner.logits x0 (val_main_v6 (F := Ideal) x1 x2) x3 x4 := by
  funext i
  rw [val_main_v16_apply, val_main_v13_apply, val_main_v15_apply, val_main_v14_apply, bias_index]
  unfold Cert.Joiner.logits
  rw [Ideal.addf_def]
  refine congrArg (· + x4 (ix1 (i 3))) (Finset.sum_congr rfl fun k _ => ?_)
  rw [val_main_v12_apply, val_main_v11_apply, val_main_v9_apply, val_main_v7_apply, val_main_v10_apply,
    val_main_v8_apply, enc_index, row_index, weight_index, Ideal.hostUnary_tanh_def, Ideal.addf_def]
  rfl

end Cert.ReferenceIdeal.RefValue

end
-- ==== Proof.lean ====
/-
  The joiner of an RNN transducer: a Pallas kernel against its jnp reference, equal on the extended reals.

  Both programs look up the embedding rows the label prefix names, add encoder frame and predictor row, take tanh, and
  project with the weight matrix plus bias: at (b, t, u, v) the logit is
  Σ_k tanh (enc (b, t, k) + row (b, u, k)) · w (v, k) + bias v (Proof/JoinerSpec.lean).  The reference does it in one
  einsum; the kernel tiles the frames by 8, feeds each tile's 800 (frame, label) pairs to one matrix product with the
  transposed weights, and writes the tiles back.  The two sums have the same terms in the same order, so the equality
  needs no law of the extended reals, and the finiteness of the float inputs is not used.

  What is used of the precondition is the label range: the kernel looks rows up with jnp.take, whose fill mode masks a
  row whose (end-relative) number falls outside the table, while the reference's indexing clamps it; for a label in
  [-1024, 1024) the number is inside the table, the mask is all ones (Proof/TakeInRange.lean), and both read the same
  row.

  The three frames are the generated ones (the reference's is its generated run with the result dropped); the
  idealization rewrote no operation, so `preserves` is trivial.
-/
import proofs.«426172_j65343632441485_1_alg».proof.Defs
import proofs.«426172_j65343632441485_1_alg».proof.Proof.Gen.Kernel
import proofs.«426172_j65343632441485_1_alg».proof.Proof.Gen.Kernel.Skeleton
import proofs.«426172_j65343632441485_1_alg».proof.Proof.Gen.Kernel.Launch
import proofs.«426172_j65343632441485_1_alg».proof.Proof.Gen.Kernel.Points
import proofs.«426172_j65343632441485_1_alg».proof.Proof.Gen.Kernel.Frame
import proofs.«426172_j65343632441485_1_alg».proof.Proof.Gen.KernelIdeal
import proofs.«426172_j65343632441485_1_alg».proof.Proof.Gen.KernelIdeal.Skeleton
import proofs.«426172_j65343632441485_1_alg».proof.Proof.Gen.KernelIdeal.Launch
import proofs.«426172_j65343632441485_1_alg».proof.Proof.Gen.KernelIdeal.Points
import proofs.«426172_j65343632441485_1_alg».proof.Proof.Gen.KernelIdeal.Frame
import proofs.«426172_j65343632441485_1_alg».proof.Proof.Gen.ReferenceIdeal
import proofs.«426172_j65343632441485_1_alg».proof.Proof.Gen.Pre_finite_inputs
import proofs.«426172_j65343632441485_1_alg».proof.Proof.Gen.KernelIdeal.Value
import proofs.«426172_j65343632441485_1_alg».proof.Proof.Gen.ReferenceIdeal.Run
import proofs.«426172_j65343632441485_1_alg».proof.Proof.Gen.ReferenceIdeal.Read
import proofs.«426172_j65343632441485_1_alg».proof.Proof.KernelRun
import proofs.«426172_j65343632441485_1_alg».proof.Proof.ReferenceValue
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts
  Cert.Pre_finite_inputs.Gen.facts

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's looked-up rows are the kernel's: the same gather of the same table at the same start rows. -/
theorem rows_eq (p : IVec Cert.KernelIdeal.S8x100 32) (tbl : FVec Ideal Cert.KernelIdeal.S1024x512 .f32) :
    Cert.ReferenceIdeal.Read.val_main_v6 (F := Ideal) p tbl
      = Host.gather Cert.KernelIdeal.gather_S1024x512_S8x100x1_S8x100x512_2_0_n_n_0_2_1512 tbl
          (Cert.KernelIdeal.TakeInRange.startRows p) := rfl

/-- From memories agreeing on the arguments, with the labels in range, both programs end with the joiner's logits of
    the arguments. -/
theorem algebraic : Cert.algebraic_KernelIdeal_ReferenceIdeal := by
  intro m ρ m' ρ' hpre hagree
  have hb := fun c => Cert.Pre_finite_inputs.Decode.label_bounds _ _ _ _ _ (hpre c)
  refine ⟨_, Cert.KernelIdeal.KernelRun.run m ρ (fun c => (hb c).1) (fun c => (hb c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.reference_eq, (hagree c).1,
    (hagree c).2.1, (hagree c).2.2.1, (hagree c).2.2.2.1, (hagree c).2.2.2.2, rows_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
